-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x64 : Shape := ⟨2, ![500000, 64]⟩
abbrev S1000000 : Shape := ⟨1, ![1000000]⟩
abbrev S128x128 : Shape := ⟨2, ![128, 128]⟩
abbrev S128 : Shape := ⟨1, ![128]⟩
abbrev S1x128 : Shape := ⟨2, ![1, 128]⟩
abbrev S1 : Shape := ⟨1, ![1]⟩
abbrev S_ : Shape := ⟨0, ![]⟩

class Facts : Prop where
  bcast_S_S500000x64 : S_.BroadcastsInDim S500000x64 (![] : Fin 0 → Fin S500000x64.rank)
  reducesTo_S500000x64_S_d0_1 : S500000x64.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S1x128 : S_.BroadcastsInDim S1x128 (![] : Fin 0 → Fin S1x128.rank)
  reducesTo_S1x128_S_d0_1 : S1x128.ReducesTo [0, 1] S_
  bcast_S_S1 : S_.BroadcastsInDim S1 (![] : Fin 0 → Fin S1.rank)
  reducesTo_S1_S_d0 : S1.ReducesTo [0] S_
  bcast_S_S1000000 : S_.BroadcastsInDim S1000000 (![] : Fin 0 → Fin S1000000.rank)
  reducesTo_S1000000_S_d0 : S1000000.ReducesTo [0] S_

variable [Facts]

def fn_part2 {F : FTy → Type} [FloatOps F] (main_arg3 : IVec S1000000 32) (main_v28 : IVec S_ 1) (main_v33 : IVec S1000000 1) : IVec S_ 1 :=
  let main_c_12 : IVec S_ 1 := constantI S_ 1 1#1
  let main_v34 : IVec S_ 1 := (fun x v => Host.reduce IntOp.andi x v reducesTo_S1000000_S_d0 h_S_) main_v33 main_c_12
  let main_v35 : IVec S_ 1 := andi main_v28 main_v34
  let main_c_13 : IVec S_ 32 := constantI S_ 32 4294467296#32
  let main_v36 : IVec S1000000 32 := broadcastInDim S1000000 ![] bcast_S_S1000000 main_c_13
  let main_v37 : IVec S1000000 1 := cmpi .sge main_arg3 main_v36
  let main_c_14 : IVec S_ 32 := constantI S_ 32 500000#32
  let main_v38 : IVec S1000000 32 := broadcastInDim S1000000 ![] bcast_S_S1000000 main_c_14
  let main_v39 : IVec S1000000 1 := cmpi .slt main_arg3 main_v38
  let main_v40 : IVec S1000000 1 := andi main_v37 main_v39
  let main_c_15 : IVec S_ 1 := constantI S_ 1 1#1
  let main_v41 : IVec S_ 1 := (fun x v => Host.reduce IntOp.andi x v reducesTo_S1000000_S_d0 h_S_) main_v40 main_c_15
  let main_v42 : IVec S_ 1 := andi main_v35 main_v41
  main_v42

def fn_part1 {F : FTy → Type} [FloatOps F] (main_arg2 : IVec S1000000 32) (main_arg3 : IVec S1000000 32) (main_arg6 : FVec F S1x128 .f32) (main_arg7 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S1x128 .f32 := Host.absf main_arg6
  let main_cst_6 : FVec F S_ .f32 := constant S_ .f32 0x7F800000#32
  let main_v20 : FVec F S1x128 .f32 := broadcastInDim S1x128 ![] bcast_S_S1x128 main_cst_6
  let main_v21 : IVec S1x128 1 := cmpf .olt main_v19 main_v20
  let main_c_7 : IVec S_ 1 := constantI S_ 1 1#1
  let main_v22 : IVec S_ 1 := (fun x v => Host.reduce IntOp.andi x v reducesTo_S1x128_S_d0_1 h_S_) main_v21 main_c_7
  let main_v23 : IVec S_ 1 := andi main_v18 main_v22
  let main_v24 : FVec F S1 .f32 := Host.absf main_arg7
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  let main_c_10 : IVec S_ 32 := constantI S_ 32 4294467296#32
  let main_v29 : IVec S1000000 32 := broadcastInDim S1000000 ![] bcast_S_S1000000 main_c_10
  let main_v30 : IVec S1000000 1 := cmpi .sge main_arg2 main_v29
  let main_c_11 : IVec S_ 32 := constantI S_ 32 500000#32
  let main_v31 : IVec S1000000 32 := broadcastInDim S1000000 ![] bcast_S_S1000000 main_c_11
  let main_v32 : IVec S1000000 1 := cmpi .slt main_arg2 main_v31
  let main_v33 : IVec S1000000 1 := andi main_v30 main_v32
  fn_part2 (F := F) main_arg3 main_v28 main_v33

def fn {F : FTy → Type} [FloatOps F] (main_arg0 : FVec F S500000x64 .f32) (main_arg1 : FVec F S500000x64 .f32) (main_arg2 : IVec S1000000 32) (main_arg3 : IVec S1000000 32) (main_arg4 : FVec F S128x128 .f32) (main_arg5 : FVec F S128 .f32) (main_arg6 : FVec F S1x128 .f32) (main_arg7 : FVec F S1 .f32) : IVec S_ 1 :=
  let main_v0 : FVec F S500000x64 .f32 := Host.absf main_arg0
  let main_cst : FVec F S_ .f32 := constant S_ .f32 0x7F800000#32
  let main_v1 : FVec F S500000x64 .f32 := broadcastInDim S500000x64 ![] bcast_S_S500000x64 main_cst
  let main_v2 : IVec S500000x64 1 := cmpf .olt main_v0 main_v1
  let main_c : IVec S_ 1 := constantI S_ 1 1#1
  let main_v3 : IVec S_ 1 := (fun x v => Host.reduce IntOp.andi x v reducesTo_S500000x64_S_d0_1 h_S_) main_v2 main_c
  let main_v4 : FVec F S500000x64 .f32 := Host.absf main_arg1
  let main_cst_0 : FVec F S_ .f32 := constant S_ .f32 0x7F800000#32
  let main_v5 : FVec F S500000x64 .f32 := broadcastInDim S500000x64 ![] bcast_S_S500000x64 main_cst_0
  let main_v6 : IVec S500000x64 1 := cmpf .olt main_v4 main_v5
  let main_c_1 : IVec S_ 1 := constantI S_ 1 1#1
  let main_v7 : IVec S_ 1 := (fun x v => Host.reduce IntOp.andi x v reducesTo_S500000x64_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg2 main_arg3 main_arg6 main_arg7 main_v13 main_v16
-- ==== Kernel.lean ====
abbrev S500000x64 : Shape := ⟨2, ![500000, 64]⟩
abbrev S1000000 : Shape := ⟨1, ![1000000]⟩
abbrev S128x128 : Shape := ⟨2, ![128, 128]⟩
abbrev S128 : Shape := ⟨1, ![128]⟩
abbrev S1x128 : Shape := ⟨2, ![1, 128]⟩
abbrev S1 : Shape := ⟨1, ![1]⟩
abbrev S_ : Shape := ⟨0, ![]⟩
abbrev S1000000x1 : Shape := ⟨2, ![1000000, 1]⟩
abbrev S1x1 : Shape := ⟨2, ![1, 1]⟩
abbrev S1000000x64 : Shape := ⟨2, ![1000000, 64]⟩
abbrev S1000000x128 : Shape := ⟨2, ![1000000, 128]⟩
abbrev S1007616x128 : Shape := ⟨2, ![1007616, 128]⟩
abbrev S1007616 : Shape := ⟨1, ![1007616]⟩
abbrev S8192x128 : Shape := ⟨2, ![8192, 128]⟩
abbrev S8192 : Shape := ⟨1, ![8192]⟩

abbrev nBuf : Space → Nat
  | .hbm => 62
  | .vmem => 8
  | .smem => 0
  | _ => 0

abbrev bufTy : (tb : Table) → Fin (tcTables nBuf tb) → BufTy
  | .hbm, ⟨0, _⟩ => ⟨S500000x64, .f32⟩
  | .hbm, ⟨1, _⟩ => ⟨S500000x64, .f32⟩
  | .hbm, ⟨2, _⟩ => ⟨S1000000, .i32⟩
  | .hbm, ⟨3, _⟩ => ⟨S1000000, .i32⟩
  | .hbm, ⟨4, _⟩ => ⟨S128x128, .f32⟩
  | .hbm, ⟨5, _⟩ => ⟨S128, .f32⟩
  | .hbm, ⟨6, _⟩ => ⟨S1x128, .f32⟩
  | .hbm, ⟨7, _⟩ => ⟨S1, .f32⟩
  | .hbm, ⟨8, _⟩ => ⟨S_, .i32⟩
  | .hbm, ⟨9, _⟩ => ⟨S1000000, .i32⟩
  | .hbm, ⟨10, _⟩ => ⟨S1000000, .i1⟩
  | .hbm, ⟨11, _⟩ => ⟨S_, .i32⟩
  | .hbm, ⟨12, _⟩ => ⟨S1000000, .i32⟩
  | .hbm, ⟨13, _⟩ => ⟨S1000000, .i32⟩
  | .hbm, ⟨14, _⟩ => ⟨S1000000, .i32⟩
  | .hbm, ⟨15, _⟩ => ⟨S1000000x1, .i32⟩
  | .hbm, ⟨16, _⟩ => ⟨S1, .i32⟩
  | .hbm, ⟨17, _⟩ => ⟨S_, .i32⟩
  | .hbm, ⟨18, _⟩ => ⟨S1000000x1, .i32⟩
  | .hbm, ⟨19, _⟩ => ⟨S1000000x1, .i1⟩
  | .hbm, ⟨20, _⟩ => ⟨S1x1, .i32⟩
  | .hbm, ⟨21, _⟩ => ⟨S1000000x1, .i32⟩
  | .hbm, ⟨22, _⟩ => ⟨S1000000x1, .i1⟩
  | .hbm, ⟨23, _⟩ => ⟨S1000000x1, .i1⟩
  | .hbm, ⟨24, _⟩ => ⟨S_, .i1⟩
  | .hbm, ⟨25, _⟩ => ⟨S1000000, .i1⟩
  | .hbm, ⟨26, _⟩ => ⟨S1000000x64, .f32⟩
  | .hbm, ⟨27, _⟩ => ⟨S1000000x64, .i1⟩
  | .hbm, ⟨28, _⟩ => ⟨S_, .f32⟩
  | .hbm, ⟨29, _⟩ => ⟨S1000000x64, .f32⟩
  | .hbm, ⟨30, _⟩ => ⟨S1000000x64, .f32⟩
  | .hbm, ⟨31, _⟩ => ⟨S_, .i32⟩
  | .hbm, ⟨32, _⟩ => ⟨S1000000, .i32⟩
  | .hbm, ⟨33, _⟩ => ⟨S1000000, .i1⟩
  | .hbm, ⟨34, _⟩ => ⟨S_, .i32⟩
  | .hbm, ⟨35, _⟩ => ⟨S1000000, .i32⟩
  | .hbm, ⟨36, _⟩ => ⟨S1000000, .i32⟩
  | .hbm, ⟨37, _⟩ => ⟨S1000000, .i32⟩
  | .hbm, ⟨38, _⟩ => ⟨S1000000x1, .i32⟩
  | .hbm, ⟨39, _⟩ => ⟨S1, .i32⟩
  | .hbm, ⟨40, _⟩ => ⟨S_, .i32⟩
  | .hbm, ⟨41, _⟩ => ⟨S1000000x1, .i32⟩
  | .hbm, ⟨42, _⟩ => ⟨S1000000x1, .i1⟩
  | .hbm, ⟨43, _⟩ => ⟨S1x1, .i32⟩
  | .hbm, ⟨44, _⟩ => ⟨S1000000x1, .i32⟩
  | .hbm, ⟨45, _⟩ => ⟨S1000000x1, .i1⟩
  | .hbm, ⟨46, _⟩ => ⟨S1000000x1, .i1⟩
  | .hbm, ⟨47, _⟩ => ⟨S_, .i1⟩
  | .hbm, ⟨48, _⟩ => ⟨S1000000, .i1⟩
  | .hbm, ⟨49, _⟩ => ⟨S1000000x64, .f32⟩
  | .hbm, ⟨50, _⟩ => ⟨S1000000x64, .i1⟩
  | .hbm, ⟨51, _⟩ => ⟨S_, .f32⟩
  | .hbm, ⟨52, _⟩ => ⟨S1000000x64, .f32⟩
  | .hbm, ⟨53, _⟩ => ⟨S1000000x64, .f32⟩
  | .hbm, ⟨54, _⟩ => ⟨S1000000x128, .f32⟩
  | .hbm, ⟨55, _⟩ => ⟨S_, .i32⟩
  | .hbm, ⟨56, _⟩ => ⟨S_, .f32⟩
  | .hbm, ⟨57, _⟩ => ⟨S1007616x128, .f32⟩
  | .hbm, ⟨58, _⟩ => ⟨S128x128, .f32⟩
  | .hbm, ⟨59, _⟩ => ⟨S1007616, .f32⟩
  | .hbm, ⟨60, _⟩ => ⟨S1000000, .f32⟩
  | .hbm, ⟨61, _⟩ => ⟨S1000000x1, .f32⟩
  | .local _ .vmem, ⟨0, _⟩ => ⟨S8192x128, .f32⟩
  | .local _ .vmem, ⟨1, _⟩ => ⟨S8192x128, .f32⟩
  | .local _ .vmem, ⟨2, _⟩ => ⟨S128x128, .f32⟩
  | .local _ .vmem, ⟨3, _⟩ => ⟨S128, .f32⟩
  | .local _ .vmem, ⟨4, _⟩ => ⟨S1x128, .f32⟩
  | .local _ .vmem, ⟨5, _⟩ => ⟨S1, .f32⟩
  | .local _ .vmem, ⟨6, _⟩ => ⟨S8192, .f32⟩
  | .local _ .vmem, ⟨7, _⟩ => ⟨S8192, .f32⟩
  | _, _ => ⟨S500000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_c : Ref sig .tc := ⟨.hbm, 8, rfl⟩
abbrev main_call0_v0 : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_c_1 : Ref sig .tc := ⟨.hbm, 16, rfl⟩
abbrev main_call0_c_2 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_3 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_cst : Ref sig .tc := ⟨.hbm, 28, rfl⟩
abbrev main_call0_v15 : Ref sig .tc := ⟨.hbm, 29, rfl⟩
abbrev main_v0 : Ref sig .tc := ⟨.hbm, 30, rfl⟩
abbrev main_call1_c : Ref sig .tc := ⟨.hbm, 31, rfl⟩
abbrev main_call1_v0 : Ref sig .tc := ⟨.hbm, 32, rfl⟩
abbrev main_call1_v1 : Ref sig .tc := ⟨.hbm, 33, rfl⟩
abbrev main_call1_c_0 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_v5 : Ref sig .tc := ⟨.hbm, 38, rfl⟩
abbrev main_call1_c_1 : Ref sig .tc := ⟨.hbm, 39, rfl⟩
abbrev main_call1_c_2 : Ref sig .tc := ⟨.hbm, 40, rfl⟩
abbrev main_call1_v6 : Ref sig .tc := ⟨.hbm, 41, rfl⟩
abbrev main_call1_v7 : Ref sig .tc := ⟨.hbm, 42, rfl⟩
abbrev main_call1_v8 : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_c_3 : Ref sig .tc := ⟨.hbm, 47, rfl⟩
abbrev main_call1_v12 : Ref sig .tc := ⟨.hbm, 48, rfl⟩
abbrev main_call1_v13 : Ref sig .tc := ⟨.hbm, 49, rfl⟩
abbrev main_call1_v14 : Ref sig .tc := ⟨.hbm, 50, rfl⟩
abbrev main_call1_cst : Ref sig .tc := ⟨.hbm, 51, rfl⟩
abbrev main_call1_v15 : Ref sig .tc := ⟨.hbm, 52, rfl⟩
abbrev main_v1 : Ref sig .tc := ⟨.hbm, 53, rfl⟩
abbrev main_v2 : Ref sig .tc := ⟨.hbm, 54, rfl⟩
abbrev main_c : Ref sig .tc := ⟨.hbm, 55, rfl⟩
abbrev main_call2_v0 : Ref sig .tc := ⟨.hbm, 56, rfl⟩
abbrev main_v3 : Ref sig .tc := ⟨.hbm, 57, rfl⟩
abbrev main_v4 : Ref sig .tc := ⟨.hbm, 58, rfl⟩
abbrev main_v5 : Ref sig .tc := ⟨.hbm, 59, rfl⟩
abbrev main_v6 : Ref sig .tc := ⟨.hbm, 60, rfl⟩
abbrev main_v7 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![123], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S1000000x1 : S_.BroadcastsInDim S1000000x1 (![] : Fin 0 → Fin S1000000x1.rank)
  bcast_S1_S1x1_1 : S1.BroadcastsInDim S1x1 (![1] : Fin 1 → Fin S1x1.rank)
  bcast_S1x1_S1000000x1_0_1 : S1x1.BroadcastsInDim S1000000x1 (![0, 1] : Fin 2 → Fin S1000000x1.rank)
  reducesTo_S1000000x1_S1000000_d1 : S1000000x1.ReducesTo [1] S1000000
  h_S_ : 0 < S_.numel
  bcast_S1000000_S1000000x64_0 : S1000000.BroadcastsInDim S1000000x64 (![0] : Fin 1 → Fin S1000000x64.rank)
  bcast_S_S1000000x64 : S_.BroadcastsInDim S1000000x64 (![] : Fin 0 → Fin S1000000x64.rank)
  concatenates_S1000000x64_S1000000x64_S1000000x128_d1 : Shape.Concatenates [S1000000x64, S1000000x64] S1000000x128 1
  pads_S1000000x128_S1007616x128_076160_000 : S1000000x128.Pads (![0, 0] : Fin 2 → Nat) ![7616, 0] ![0, 0] S1007616x128
  transposes_S128x128_S128x128_1_0 : S128x128.Transposes [1, 0] S128x128
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S8192x128 : S1x128.Broadcasts S8192x128
  inb_S1x128_S1x128_0_0 : ∀ a, (![0, 0] : Fin 2 → Nat) a + S1x128.size a ≤ S1x128.size a
  h_S1x128 : 0 < S1x128.numel
  shapeCasts_S1x128_S128 : S1x128.ShapeCasts S128
  reduces_S8192x128_S8192 : S8192x128.Reduces [1] S8192
  inb_S1_S1_0 : ∀ a, (![0] : Fin 1 → Nat) a + S1.size a ≤ S1.size a
  h_S1 : 0 < S1.numel
  broadcasts_S1_S8192 : S1.Broadcasts S8192
  inb_S8192_S8192_0 : ∀ a, (![0] : Fin 1 → Nat) a + S8192.size a ≤ S8192.size a
  h_S8192 : 0 < S8192.numel
  slices_S1007616_S1000000_0 : S1007616.Slices ![0] S1000000
  shapeCasts_S1000000_S1000000x1 : S1000000.ShapeCasts S1000000x1
  gather_S500000x64_S1000000x1_S1000000x64_1_0_n_n_0_1_164_wf : GatherDims.WF S500000x64 S1000000x1 S1000000x64 [1] [0] [] [0] [] 1 ![1, 64]
  dot_S8192x128_S128x128_S8192x128_1_0_0_1_n_n_wf : DotDims.WF S8192x128 S128x128 S8192x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S1007616x128.size a
  hwx0_0 : ∀ i : grid0.Coords, EltTy.bits .f32 = 32 ∨ (Rect.block (s := S1007616x128) S8192x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1.size a ≤ S1.size a
  hwx0_4 : ∀ i : grid0.Coords, EltTy.bits .f32 = 32 ∨ (Rect.block (s := S1) S1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8192.size a ≤ S1007616.size a
  hwx0_5 : ∀ i : grid0.Coords, EltTy.bits .f32 = 32 ∨ (Rect.block (s := S1007616) S8192.size (cc0_transform_5 i) (hinb0_5 i)).WholeWords (EltTy.packing .f32)

variable [Facts₀]

def gather_S500000x64_S1000000x1_S1000000x64_1_0_n_n_0_1_164 : GatherDims S500000x64 S1000000x1 S1000000x64 where
  offsetDims := [1]
  collapsedSliceDims := [0]
  operandBatchingDims := []
  startIndicesBatchingDims := []
  startIndexMap := [0]
  indexVectorDim := 1
  sliceSizes := ![1, 64]
  wf := gather_S500000x64_S1000000x1_S1000000x64_1_0_n_n_0_1_164_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf

abbrev win0_0 : Pipeline.Window sig grid0 :=
  Pipeline.Window.ofSpec (Memref.whole main_v3) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg7) S1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S8192.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S500000x64 : Shape := ⟨2, ![500000, 64]⟩
abbrev S1000000 : Shape := ⟨1, ![1000000]⟩
abbrev S128x128 : Shape := ⟨2, ![128, 128]⟩
abbrev S128 : Shape := ⟨1, ![128]⟩
abbrev S1x128 : Shape := ⟨2, ![1, 128]⟩
abbrev S1 : Shape := ⟨1, ![1]⟩
abbrev S_ : Shape := ⟨0, ![]⟩
abbrev S1000000x1 : Shape := ⟨2, ![1000000, 1]⟩
abbrev S1000000x64 : Shape := ⟨2, ![1000000, 64]⟩
abbrev S1000000x128 : Shape := ⟨2, ![1000000, 128]⟩
abbrev S128x1 : Shape := ⟨2, ![128, 1]⟩
abbrev S1x1 : Shape := ⟨2, ![1, 1]⟩

abbrev nBuf : Space → Nat
  | .hbm => 40
  | .vmem => 0
  | .smem => 0
  | _ => 0

abbrev bufTy : (tb : Table) → Fin (tcTables nBuf tb) → BufTy
  | .hbm, ⟨0, _⟩ => ⟨S500000x64, .f32⟩
  | .hbm, ⟨1, _⟩ => ⟨S500000x64, .f32⟩
  | .hbm, ⟨2, _⟩ => ⟨S1000000, .i32⟩
  | .hbm, ⟨3, _⟩ => ⟨S1000000, .i32⟩
  | .hbm, ⟨4, _⟩ => ⟨S128x128, .f32⟩
  | .hbm, ⟨5, _⟩ => ⟨S128, .f32⟩
  | .hbm, ⟨6, _⟩ => ⟨S1x128, .f32⟩
  | .hbm, ⟨7, _⟩ => ⟨S1, .f32⟩
  | .hbm, ⟨8, _⟩ => ⟨S_, .i32⟩
  | .hbm, ⟨9, _⟩ => ⟨S1000000, .i32⟩
  | .hbm, ⟨10, _⟩ => ⟨S1000000, .i1⟩
  | .hbm, ⟨11, _⟩ => ⟨S_, .i32⟩
  | .hbm, ⟨12, _⟩ => ⟨S1000000, .i32⟩
  | .hbm, ⟨13, _⟩ => ⟨S1000000, .i32⟩
  | .hbm, ⟨14, _⟩ => ⟨S1000000, .i32⟩
  | .hbm, ⟨15, _⟩ => ⟨S1000000x1, .i32⟩
  | .hbm, ⟨16, _⟩ => ⟨S1000000x64, .f32⟩
  | .hbm, ⟨17, _⟩ => ⟨S_, .i32⟩
  | .hbm, ⟨18, _⟩ => ⟨S1000000, .i32⟩
  | .hbm, ⟨19, _⟩ => ⟨S1000000, .i1⟩
  | .hbm, ⟨20, _⟩ => ⟨S_, .i32⟩
  | .hbm, ⟨21, _⟩ => ⟨S1000000, .i32⟩
  | .hbm, ⟨22, _⟩ => ⟨S1000000, .i32⟩
  | .hbm, ⟨23, _⟩ => ⟨S1000000, .i32⟩
  | .hbm, ⟨24, _⟩ => ⟨S1000000x1, .i32⟩
  | .hbm, ⟨25, _⟩ => ⟨S1000000x64, .f32⟩
  | .hbm, ⟨26, _⟩ => ⟨S1000000x128, .f32⟩
  | .hbm, ⟨27, _⟩ => ⟨S128x128, .f32⟩
  | .hbm, ⟨28, _⟩ => ⟨S1000000x128, .f32⟩
  | .hbm, ⟨29, _⟩ => ⟨S1x128, .f32⟩
  | .hbm, ⟨30, _⟩ => ⟨S1000000x128, .f32⟩
  | .hbm, ⟨31, _⟩ => ⟨S1000000x128, .f32⟩
  | .hbm, ⟨32, _⟩ => ⟨S_, .f32⟩
  | .hbm, ⟨33, _⟩ => ⟨S1000000x128, .f32⟩
  | .hbm, ⟨34, _⟩ => ⟨S1000000x128, .f32⟩
  | .hbm, ⟨35, _⟩ => ⟨S128x1, .f32⟩
  | .hbm, ⟨36, _⟩ => ⟨S1000000x1, .f32⟩
  | .hbm, ⟨37, _⟩ => ⟨S1x1, .f32⟩
  | .hbm, ⟨38, _⟩ => ⟨S1000000x1, .f32⟩
  | .hbm, ⟨39, _⟩ => ⟨S1000000x1, .f32⟩
  | _, _ => ⟨S500000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c_1 : Ref sig .tc := ⟨.hbm, 17, rfl⟩
abbrev main_v7 : Ref sig .tc := ⟨.hbm, 18, rfl⟩
abbrev main_v8 : Ref sig .tc := ⟨.hbm, 19, rfl⟩
abbrev main_c_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_call0_cst : Ref sig .tc := ⟨.hbm, 32, rfl⟩
abbrev main_call0_v0 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]

class Facts₀ : Prop where
  bcast_S_S1000000 : S_.BroadcastsInDim S1000000 (![] : Fin 0 → Fin S1000000.rank)
  bcast_S1000000_S1000000x1_0 : S1000000.BroadcastsInDim S1000000x1 (![0] : Fin 1 → Fin S1000000x1.rank)
  concatenates_S1000000x64_S1000000x64_S1000000x128_d1 : Shape.Concatenates [S1000000x64, S1000000x64] S1000000x128 1
  transposes_S128x128_S128x128_1_0 : S128x128.Transposes [1, 0] S128x128
  bcast_S128_S1x128_1 : S128.BroadcastsInDim S1x128 (![1] : Fin 1 → Fin S1x128.rank)
  bcast_S1x128_S1000000x128_0_1 : S1x128.BroadcastsInDim S1000000x128 (![0, 1] : Fin 2 → Fin S1000000x128.rank)
  bcast_S_S1000000x128 : S_.BroadcastsInDim S1000000x128 (![] : Fin 0 → Fin S1000000x128.rank)
  transposes_S1x128_S128x1_1_0 : S1x128.Transposes [1, 0] S128x1
  bcast_S1_S1x1_1 : S1.BroadcastsInDim S1x1 (![1] : Fin 1 → Fin S1x1.rank)
  bcast_S1x1_S1000000x1_0_1 : S1x1.BroadcastsInDim S1000000x1 (![0, 1] : Fin 2 → Fin S1000000x1.rank)
  gather_S500000x64_S1000000x1_S1000000x64_1_0_n_n_0_1_164_wf : GatherDims.WF S500000x64 S1000000x1 S1000000x64 [1] [0] [] [0] [] 1 ![1, 64]
  dot_S1000000x128_S128x128_S1000000x128_1_0_0_1_n_n_wf : DotDims.WF S1000000x128 S128x128 S1000000x128 [1] [0] [0] [1] [] []
  dot_S1000000x128_S128x1_S1000000x1_1_0_0_1_n_n_wf : DotDims.WF S1000000x128 S128x1 S1000000x1 [1] [0] [0] [1] [] []

variable [Facts₀]

def gather_S500000x64_S1000000x1_S1000000x64_1_0_n_n_0_1_164 : GatherDims S500000x64 S1000000x1 S1000000x64 where
  offsetDims := [1]
  collapsedSliceDims := [0]
  operandBatchingDims := []
  startIndicesBatchingDims := []
  startIndexMap := [0]
  indexVectorDim := 1
  sliceSizes := ![1, 64]
  wf := gather_S500000x64_S1000000x1_S1000000x64_1_0_n_n_0_1_164_wf
def dot_S1000000x128_S128x128_S1000000x128_1_0_0_1_n_n : DotDims S1000000x128 S128x128 S1000000x128 where
  lhsContracting := [1]
  rhsContracting := [0]
  lhsNonContracting := [0]
  rhsNonContracting := [1]
  lhsBatch := []
  rhsBatch := []
  wf := dot_S1000000x128_S128x128_S1000000x128_1_0_0_1_n_n_wf
def dot_S1000000x128_S128x1_S1000000x1_1_0_0_1_n_n : DotDims S1000000x128 S128x1 S1000000x1 where
  lhsContracting := [1]
  rhsContracting := [0]
  lhsNonContracting := [0]
  rhsNonContracting := [1]
  lhsBatch := []
  rhsBatch := []
  wf := dot_S1000000x128_S128x1_S1000000x1_1_0_0_1_n_n_wf

class Facts : Prop extends Facts₀ where

variable [Facts]
-- ==== Proof.Score.lean ====
/-
  The score of one candidate pair from its 128 concatenated features `x` (64 of the left node, then 64 of the right):
  a hidden layer of 128 units, unit `k` holding `max (∑ j, x j · W1ᵀ[j, k] + b1[k]) 0`, then one output unit,
  `∑ k, hidden k · W2[0, k] + b2[0]`, on the extended reals. `W1t` is the first layer's weight already transposed
  (contraction index first), as both programs hand it to their matrix product.
-/
import Idealize.ShloMosaic.PureOps.Ideal
import Idealize.ShloMosaic.Lib.ValueIdx

noncomputable section

namespace Cert.Hand

open Idealize.ShloMosaic Idealize.ShloMosaic.ValueIdx

/-- One pair's score as a function of its feature row. -/
def score (W1t : (⟨2, ![128, 128]⟩ : Shape).Idx → EReal) (b1 : (⟨1, ![128]⟩ : Shape).Idx → EReal)
    (W2 : (⟨2, ![1, 128]⟩ : Shape).Idx → EReal) (b2 : (⟨1, ![1]⟩ : Shape).Idx → EReal) (x : Fin 128 → EReal) : EReal :=
  (∑ k : Fin 128, max ((∑ j : Fin 128, x j * W1t (ix2 j k)) + b1 (ix1 k)) 0 * W2 (ix2 (0 : Fin 1) k)) + b2 (ix1 (0 : Fin 1))

end Cert.Hand

end
-- ==== Proof.KernelBlock.lean ====
/-
  What the kernel body stores for one row of its block: with the block's rows `x0`, the transposed first-layer
  weight `x1`, the biases and the second-layer row, entry `r` of the stored vector is the score of row `r`.
  The body's matrix product into a zero accumulator is the plain sum over the contraction index, its lane
  reduction the plain sum over the 128 hidden units, the format changes the identity.
-/
import proofs.«400610_j36120674959616_2_alg».proof.Proof.Gen.KernelIdeal.Skeleton
import proofs.«400610_j36120674959616_2_alg».proof.Proof.Score
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Cert.KernelIdeal Cert.KernelIdeal.Gen Cert.Hand Idealize.ShloMosaic Idealize.ShloMosaic.ValueIdx

/-! ## The block's matrix product at an index -/

theorem lhs_tile_0 (i : S8192x128.Idx) (q : dot_S8192x128_S128x128_S8192x128_1_0_0_1_n_n.contr.Idx) :
    (dot_S8192x128_S128x128_S8192x128_1_0_0_1_n_n.lhsIdx i q 0).val = (i 0).val := by
  unfold DotDims.lhsIdx
  rw [dif_neg (show ¬(0 : Fin S8192x128.rank) ∈ dot_S8192x128_S128x128_S8192x128_1_0_0_1_n_n.lhsBatch by decide), dif_pos (show (0 : Fin S8192x128.rank) ∈ dot_S8192x128_S128x128_S8192x128_1_0_0_1_n_n.lhsNonContracting by decide)]
  rfl
theorem lhs_tile_1 (i : S8192x128.Idx) (q : dot_S8192x128_S128x128_S8192x128_1_0_0_1_n_n.contr.Idx) :
    (dot_S8192x128_S128x128_S8192x128_1_0_0_1_n_n.lhsIdx i q 1).val = (q ⟨0, by decide⟩).val :=
  dot_S8192x128_S128x128_S8192x128_1_0_0_1_n_n.lhsIdx_val_of_single rfl i q
theorem rhs_tile_0 (i : S8192x128.Idx) (q : dot_S8192x128_S128x128_S8192x128_1_0_0_1_n_n.contr.Idx) :
    (dot_S8192x128_S128x128_S8192x128_1_0_0_1_n_n.rhsIdx i q 0).val = (q ⟨0, by decide⟩).val :=
  dot_S8192x128_S128x128_S8192x128_1_0_0_1_n_n.rhsIdx_val_of_single rfl i q
theorem rhs_tile_1 (i : S8192x128.Idx) (q : dot_S8192x128_S128x128_S8192x128_1_0_0_1_n_n.contr.Idx) :
    (dot_S8192x128_S128x128_S8192x128_1_0_0_1_n_n.rhsIdx i q 1).val = (i 1).val := by
  unfold DotDims.rhsIdx
  rw [dif_neg (show ¬(1 : Fin S128x128.rank) ∈ dot_S8192x128_S128x128_S8192x128_1_0_0_1_n_n.rhsBatch by decide), dif_pos (show (1 : Fin S128x128.rank) ∈ dot_S8192x128_S128x128_S8192x128_1_0_0_1_n_n.rhsNonContracting by decide)]
  rfl

/-- The body's matrix product of the block's rows with the transposed weight, into zeros, at `(r, k)`:
    `∑ j, a[r, j] · w[j, k]`. -/
theorem matmul_tile_apply (a : FVec Ideal S8192x128 .bf16) (w : FVec Ideal S128x128 .bf16) (r : Fin 8192) (k : Fin 128) :
    matmul dot_S8192x128_S128x128_S8192x128_1_0_0_1_n_n none a w (constant S8192x128 .f32 0x00000000#32) (ix2 r k)
      = ∑ j : Fin 128, a (ix2 r j) * w (ix2 j k) := by
  simp only [matmul]
  rw [Ideal.matmul_constant_zero_apply, ← Equiv.sum_comp (ValueIdx.contrEquiv1 dot_S8192x128_S128x128_S8192x128_1_0_0_1_n_n 128 rfl rfl).symm]
  refine Finset.sum_congr rfl fun j _ => ?_
  have hk := ValueIdx.contrEquiv1_symm_val dot_S8192x128_S128x128_S8192x128_1_0_0_1_n_n 128 rfl rfl j
  have el : dot_S8192x128_S128x128_S8192x128_1_0_0_1_n_n.lhsIdx (ix2 r k) ((ValueIdx.contrEquiv1 dot_S8192x128_S128x128_S8192x128_1_0_0_1_n_n 128 rfl rfl).symm j) = ix2 r j := funext fun a => Fin.ext (by
    match a with
    | ⟨0, _⟩ => exact lhs_tile_0 _ _
    | ⟨1, _⟩ => exact (lhs_tile_1 _ _).trans hk)
  have er : dot_S8192x128_S128x128_S8192x128_1_0_0_1_n_n.rhsIdx (ix2 r k) ((ValueIdx.contrEquiv1 dot_S8192x128_S128x128_S8192x128_1_0_0_1_n_n 128 rfl rfl).symm j) = ix2 j k := funext fun a => Fin.ext (by
    match a with
    | ⟨0, _⟩ => exact (rhs_tile_0 _ _).trans hk
    | ⟨1, _⟩ => exact rhs_tile_1 _ _)
  rw [el, er]

/-! ## The lane reduction at an index -/

/-- The body's sum over the 128 lanes of row `r`. -/
theorem lanesum_apply (v : FVec Ideal S8192x128 .f32) (hφ : FKind.Formats .f32)
    (hacc : (0x00000000#32 : BitVec 32) = FKind.add.neutral .f32 hφ) (r : Fin 8192) :
    multiReduction .add [1] S8192 v 0x00000000#32 reduces_S8192x128_S8192 hφ hacc (ix1 r) = ∑ k : Fin 128, v (ix2 r k) :=
  (Ideal.multiReduction_add_single v _ reduces_S8192x128_S8192 hφ hacc (ix1 r)).trans
    (Finset.sum_congr rfl fun k _ => congrArg v (funext fun a => Fin.ext (by
      match a with
      | ⟨0, _⟩ => rfl
      | ⟨1, _⟩ => rfl)))

/-! ## The stored vector at a row -/

/-- Entry `r` of what the body stores is the score of row `r` of its block. -/
theorem pay_apply (x0 : FVec Ideal S8192x128 .f32) (x1 : FVec Ideal S128x128 .f32) (x2 : FVec Ideal S128 .f32)
    (x3 : FVec Ideal S1x128 .f32) (x4 : FVec Ideal S1 .f32) (r : Fin 8192) :
    k0_pay1 (F := Ideal) x0 x1 x2 x3 x4 (ix1 r) = score x1 x2 x3 x4 (fun j => x0 (ix2 r j)) := by
  unfold k0_pay1 score
  refine (addf_apply _ _ _).trans ?_
  congr 1
  · refine (lanesum_apply _ _ _ r).trans (Finset.sum_congr rfl fun k _ => ?_)
    refine (mulf_apply _ _ _).trans ?_
    congr 1
    · refine (maximumf_apply _ _ _).trans ?_
      congr 1
      · refine (addf_apply _ _ _).trans ?_
        congr 1
        · rw [shapeCast_self, shapeCast_self]
          exact matmul_tile_apply _ _ r k
        · refine (broadcastTo_1b_ab_apply _ _ r k).trans ?_
          exact shapeCast_a_1a_apply x2 _ 0 k
      · show Ideal.ofBits .f32 0x00000000#32 = 0
        exact Ideal.ofBits_zero_f32
    · refine (broadcastTo_1b_ab_apply _ _ r k).trans ?_
      refine (shapeCast_a_1a_apply _ _ 0 k).trans ?_
      exact shapeCast_1a_a_apply x3 _ k
  · refine broadcastTo_apply x4 _ (ix1 r) (ix1 0) fun a => ?_
    match a with
    | ⟨0, _⟩ => rfl

end Cert.KernelIdeal.Hand

end
-- ==== Proof.KernelArray.lean ====
/-
  The kernel's output array after the run. Grid point `t` stages rows `8192·t … 8192·t + 8191` of the padded
  feature array and the whole of the transposed weight, the biases and the second-layer row, and writes back the
  scores of those rows to entries `8192·t … 8192·t + 8191` of the output; the 123 blocks tile the 1007616 entries.
  So the output ends holding, at every row, that row's score.
-/
import proofs.«400610_j36120674959616_2_alg».proof.Proof.Gen.KernelIdeal.Frame
import proofs.«400610_j36120674959616_2_alg».proof.Proof.KernelBlock
import Idealize.ShloMosaic.Lib.Pipeline.Value

noncomputable section

namespace Cert.KernelIdeal.Hand

open Cert.KernelIdeal Cert.KernelIdeal.Gen Cert.Hand Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

/-! ## The arrays the region finds -/

/-- The padded feature array, the transposed first-layer weight, the biases and the second-layer row. -/
abbrev featsPadded (c : Dev nD) : FVec Ideal S1007616x128 .f32 := V m c main_v3
abbrev weight1T (c : Dev nD) : FVec Ideal S128x128 .f32 := V m c main_v4
abbrev bias1 (c : Dev nD) : FVec Ideal S128 .f32 := V m c main_arg5
abbrev weight2 (c : Dev nD) : FVec Ideal S1x128 .f32 := V m c main_arg6
abbrev bias2 (c : Dev nD) : FVec Ideal S1 .f32 := V m c main_arg7

/-- The score of padded row `r`. -/
def rowScore (c : Dev nD) (r : Fin 1007616) : EReal :=
  score (weight1T m c) (bias1 m c) (weight2 m c) (bias2 m c) (fun j => featsPadded m c (ix2 r j))

/-- What the output array ends holding: every padded row's score. -/
def rowScores (c : Dev nD) : FVec Ideal S1007616 .f32 := fun i => rowScore m c ⟨(i 0).val, (i 0).isLt⟩

theorem hz1 : (![0] : Fin 1 → Nat) = fun _ => 0 := funext fun a => by fin_cases a; rfl
theorem hz2 : (![0, 0] : Fin 2 → Nat) = fun _ => 0 := funext fun a => by fin_cases a <;> rfl

/-- The printed index maps over the grid: the feature window and the output window move with the point, the
    other windows stay at block 0. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 1) = t.val :=
  (by decide +kernel : ∀ t : Fin grid0.N, _)

/-! ## The input blocks at a point -/

/-- The feature block at point `t` is rows `8192·t + r` of the padded feature array. -/
theorem feat_block_apply (c : Dev nD) (t : Fin cfg0.N) (r : Fin 8192) (j : Fin 128) (k : Fin 1007616)
    (hk : k.val = t.val * 8192 + r.val) :
    (iblk m c 0 t : FVec Ideal S8192x128 .f32) (ix2 r j) = featsPadded m c (ix2 k j) := by
  obtain ⟨e00, e01, -⟩ := idx_facts t
  unfold iblk
  rw [View.read_apply]
  show V m c main_v3 _ = V m c main_v3 _
  congr 1
  funext a
  apply Fin.ext
  match a with
  | ⟨0, _⟩ => show win0_0.index t (0 : Fin 2) * 8192 + 1 * r.val = k.val; rw [e00, hk]; omega
  | ⟨1, _⟩ => show win0_0.index t (1 : Fin 2) * 128 + 1 * j.val = j.val; rw [e01]; omega

/-- The weight block at any point is the whole transposed weight. -/
theorem weight1_block (c : Dev nD) (t : Fin cfg0.N) : (iblk m c 1 t : FVec Ideal S128x128 .f32) = weight1T m c := by
  obtain ⟨-, -, e10, e11, -⟩ := idx_facts t
  funext i
  unfold iblk
  rw [View.read_apply]
  show V m c main_v4 _ = V m c main_v4 _
  congr 1
  funext a
  apply Fin.ext
  match a with
  | ⟨0, _⟩ => show win0_1.index t (0 : Fin 2) * 128 + 1 * (i 0).val = (i 0).val; rw [e10]; omega
  | ⟨1, _⟩ => show win0_1.index t (1 : Fin 2) * 128 + 1 * (i 1).val = (i 1).val; rw [e11]; omega

theorem bias1_block (c : Dev nD) (t : Fin cfg0.N) : (iblk m c 2 t : FVec Ideal S128 .f32) = bias1 m c := by
  obtain ⟨-, -, -, -, e2, -⟩ := idx_facts t
  funext i
  unfold iblk
  rw [View.read_apply]
  show V m c main_arg5 _ = V m c main_arg5 _
  congr 1
  funext a
  apply Fin.ext
  match a with
  | ⟨0, _⟩ => show win0_2.index t (0 : Fin 1) * 128 + 1 * (i 0).val = (i 0).val; rw [e2]; omega

theorem weight2_block (c : Dev nD) (t : Fin cfg0.N) : (iblk m c 3 t : FVec Ideal S1x128 .f32) = weight2 m c := by
  obtain ⟨-, -, -, -, -, e30, e31, -⟩ := idx_facts t
  funext i
  unfold iblk
  rw [View.read_apply]
  show V m c main_arg6 _ = V m c main_arg6 _
  congr 1
  funext a
  apply Fin.ext
  match a with
  | ⟨0, _⟩ => show win0_3.index t (0 : Fin 2) * 1 + 1 * (i 0).val = (i 0).val; rw [e30]; omega
  | ⟨1, _⟩ => show win0_3.index t (1 : Fin 2) * 128 + 1 * (i 1).val = (i 1).val; rw [e31]; omega

theorem bias2_block (c : Dev nD) (t : Fin cfg0.N) : (iblk m c 4 t : FVec Ideal S1 .f32) = bias2 m c := by
  obtain ⟨-, -, -, -, -, -, -, e4, -⟩ := idx_facts t
  funext i
  unfold iblk
  rw [View.read_apply]
  show V m c main_arg7 _ = V m c main_arg7 _
  congr 1
  funext a
  apply Fin.ext
  match a with
  | ⟨0, _⟩ => show win0_4.index t (0 : Fin 1) * 1 + 1 * (i 0).val = (i 0).val; rw [e4]; omega

/-! ## What a point writes back, and the array after the run -/

/-- Entry `r` of what point `t` leaves in the output's buffer is the score of padded row `8192·t + r`. -/
theorem out_block_apply (c : Dev nD) (t : Fin cfg0.N) (r : Fin 8192) (k : Fin 1007616) (hk : k.val = t.val * 8192 + r.val) :
    k0_pay1 (F := Ideal) (iblk m c 0 t) (iblk m c 1 t) (iblk m c 2 t) (iblk m c 3 t) (iblk m c 4 t) (ix1 r) = rowScore m c k := by
  refine (pay_apply _ _ _ _ _ r).trans ?_
  unfold rowScore
  rw [weight1_block, bias1_block, weight2_block, bias2_block]
  congr 1
  funext j
  exact feat_block_apply m c t r j k hk

/-- WHAT POINT `t` WRITES BACK is block `t` of the row scores. -/
theorem flushed_eq (c : Dev nD) (t : Fin cfg0.N) :
    (dats m 0 c).flushed 5 t = ((cfg0.win 5).blk t).view.read (Elt Ideal) (rowScores m c) := by
  show (cfg0.win 5).cut (grid0.coords t) ((dats m 0 c).after 5 t) = _
  rw [after0_5]
  unfold out0_5
  rw [View.canon_unit_zero hz1]
  simp only [View.ld_unit_zero (S := S8192x128) hz2, View.ld_unit_zero (S := S128x128) hz2, View.ld_unit_zero (S := S128) hz1,
    View.ld_unit_zero (S := S1x128) hz2, View.ld_unit_zero (S := S1) hz1]
  obtain ⟨-, -, -, -, -, -, -, -, e5⟩ := idx_facts t
  funext y
  have hN : cfg0.N = 123 := N_0
  have ht : t.val < 123 := hN ▸ t.isLt
  have hy : (y 0).val < 8192 := (y 0).isLt
  show k0_pay1 (F := Ideal) (iblk m c 0 t) (iblk m c 1 t) (iblk m c 2 t) (iblk m c 3 t) (iblk m c 4 t) y
      = rowScores m c (((cfg0.win 5).blk t).view.emb y)
  refine (congrArg (k0_pay1 (F := Ideal) (iblk m c 0 t) (iblk m c 1 t) (iblk m c 2 t) (iblk m c 3 t) (iblk m c 4 t))
    (eq_ix1 (n := 8192) y)).trans ?_
  refine (out_block_apply m c t ⟨(y 0).val, hy⟩ ⟨t.val * 8192 + (y 0).val, by omega⟩ rfl).trans ?_
  refine congrArg (rowScore m c) (Fin.ext ?_)
  show t.val * 8192 + (y 0).val = win0_5.index t (0 : Fin 1) * 8192 + 1 * (y 0).val
  rw [e5]; omega

/-- An entry of the output is in point `t`'s block iff it lies in `[8192·index, 8192·index + 8192)`. -/
theorem mem_blk (t : Fin cfg0.N) (i : S1007616.Idx) :
    i ∈ ((cfg0.win 5).blk t).view.set ↔ ∀ a : Fin 1, win0_5.index t a * S8192.size a ≤ (i a).val ∧ (i a).val < win0_5.index t a * S8192.size a + S8192.size a := by
  show i ∈ ((View.whole main_v5).slice (win0_5.rect t)).set ↔ _
  rw [View.set_slice_whole, Rect.mem_set_unit]
  exact Iff.rfl

/-- Every entry of the output is in the block of the point `entry / 8192`. -/
theorem cover (i : S1007616.Idx) : ∃ t : Fin cfg0.N, (cfg0.win 5).flush t = true ∧ i ∈ ((cfg0.win 5).blk t).view.set := by
  have hi : (i 0).val < 1007616 := (i 0).isLt
  have hN : cfg0.N = 123 := N_0
  refine ⟨⟨(i 0).val / 8192, by rw [hN]; omega⟩, flush0_5 _, ?_⟩
  rw [mem_blk]
  intro a
  obtain ⟨-, -, -, -, -, -, -, -, e5⟩ := idx_facts ⟨(i 0).val / 8192, by rw [hN]; omega⟩
  match a with
  | ⟨0, _⟩ =>
    show win0_5.index ⟨(i 0).val / 8192, _⟩ (0 : Fin 1) * 8192 ≤ (i 0).val ∧ (i 0).val < win0_5.index ⟨(i 0).val / 8192, _⟩ (0 : Fin 1) * 8192 + 8192
    rw [e5]
    show (i 0).val / 8192 * 8192 ≤ (i 0).val ∧ (i 0).val < (i 0).val / 8192 * 8192 + 8192
    omega

/-- THE OUTPUT ARRAY after the run holds every padded row's score. -/
theorem final (c : Dev nD) : (dats m 0 c).arrAt 5 cfg0.N = rowScores m c :=
  (dats m 0 c).arrAt_eq_of_cover 5 (rowScores m c) (fun t _ => flushed_eq m c t) (cover)

end Cert.KernelIdeal.Hand

end
-- ==== Proof.IndexWords.lean ====
/-
  Signed 32-bit index words. An index `i` into an axis of extent 500000 that lies in `[-500000, 500000)` is wrapped the
  NumPy way (`i + 500000` when `i < 0`, else `i`) to a word in `[0, 499999]`: the range test a fill-mode take applies
  to the wrapped index passes. And a reduction by `and` over `i1` words, started at 1, is 1 when every word it meets is 1.
-/
import Idealize.ShloMosaic.Lib.Affine
import Idealize.ShloMosaic.Lib.ReduceAll
import Idealize.ShloMosaic.Lib.ValueIdx

namespace Cert.Hand

open Idealize.ShloMosaic

/-- The wrapped index: `i + 500000` for a negative `i`, else `i`. -/
abbrev wrap (i : BitVec 32) : BitVec 32 :=
  Scalar.select (IntOp.cmpi .slt i 0#32) (IntOp.addi i 500000#32) i

/-- For `-500000 ≤ i < 500000` (signed) the wrapped index passes both range tests `0 ≤ · ≤ 499999`. -/
theorem wrap_in_range (i : BitVec 32)
    (hlo : IntOp.cmpi .sge i 4294467296#32 = 1#1) (hhi : IntOp.cmpi .slt i 500000#32 = 1#1) :
    IntOp.andi (IntOp.cmpi .sge (wrap i) 0#32) (IntOp.cmpi .sle (wrap i) 499999#32) = 1#1 := by
  rw [IntOp.cmpi_sge] at hlo
  rw [IntOp.cmpi_slt] at hhi
  have e1 : (4294467296#32 : BitVec 32).toInt = -500000 := by decide
  have e2 : (500000#32 : BitVec 32).toInt = 500000 := by decide
  have e3 : (0#32 : BitVec 32).toInt = 0 := by decide
  have e4 : (499999#32 : BitVec 32).toInt = 499999 := by decide
  rw [e1] at hlo
  rw [e2] at hhi
  rw [IntOp.andi_eq_one, IntOp.cmpi_sge, IntOp.cmpi_sle, e3, e4]
  unfold wrap
  by_cases hneg : IntOp.cmpi .slt i 0#32 = 1#1
  · rw [hneg, ValueIdx.select_one]
    rw [IntOp.cmpi_slt, e3] at hneg
    have hs : (IntOp.addi i 500000#32).toInt = i.toInt + 500000 := by
      unfold IntOp.addi
      rw [BitVec.toInt_add, e2]
      unfold Int.bmod
      dsimp only
      split_ifs <;> omega
    rw [hs]
    omega
  · have hge : ¬ i.toInt < 0 := by
      intro h; exact hneg (by rw [IntOp.cmpi_slt, e3]; exact h)
    rw [ValueIdx.eq_zero_of_ne_one hneg, ValueIdx.select_zero]
    omega

/-- A left fold by `and` from 1 over words that are all 1 is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a (List.mem_cons_self ..)]
    exact foldl_andi_one f l fun n hn => h n (List.mem_cons_of_mem _ hn)

/-- A `stablehlo.reduce` by `and` from the constant 1 is 1 at `j` when every operand word that reduces into `j` is 1. -/
theorem reduce_andi_one {s t u : Shape} {axes : List (Fin s.rank)} (x : s.Idx → BitVec 1) (init : u.Idx → BitVec 1)
    (h : s.ReducesTo axes t) (hu : 0 < u.numel) (j : t.Idx) (hinit : init (Shape.Idx.first hu) = 1#1)
    (hx : ∀ i, h.drop i = j → x i = 1#1) : Host.reduce IntOp.andi x init h hu j = 1#1 := by
  rw [Host.reduce_eq_foldl, hinit]
  exact foldl_andi_one x _ fun n hn => hx n (by simpa using (List.mem_filter.1 hn).2)

end Cert.Hand
-- ==== Proof.TakeInRange.lean ====
/-
  The kernel gathers with a fill-mode take: the index is wrapped (`i + 500000` when negative), the row of the
  table at the wrapped index is gathered, and the row is kept where `0 ≤ wrapped ≤ 499999`, replaced by a fill
  value elsewhere. When every index lies in `[-500000, 500000)` the range test passes at every pair, so the take is
  the plain gather at the wrapped index.
-/
import proofs.«400610_j36120674959616_2_alg».proof.Proof.Gen.KernelIdeal
import proofs.«400610_j36120674959616_2_alg».proof.Proof.IndexWords
import Idealize.ShloMosaic.Lib.Pipeline.Value
import Idealize.ShloMosaic.Lib.ValueIdx

noncomputable section

namespace Cert.KernelIdeal.Hand

open Cert.KernelIdeal Cert.KernelIdeal.Gen Cert.Hand Idealize.ShloMosaic Idealize.ShloMosaic.ValueIdx

variable {F : FTy → Type} [FloatOps F]

/-- The index vector wrapped the NumPy way, as the column of start indices the gather takes. -/
def wrapped (idx : IVec S1000000 32) : IVec S1000000x1 32 :=
  broadcastInDim S1000000x1 ![0] bcast_S1000000_S1000000x1_0
    (select (cmpi .slt idx (broadcastInDim S1000000 ![] bcast_S_S1000000 (constantI S_ 32 0#32)))
      (addi idx (broadcastInDim S1000000 ![] bcast_S_S1000000 (constantI S_ 32 500000#32))) idx)

/-- The take's range test per pair: `0 ≤ wrapped ≤ 499999`, reduced by `and` over the column's one entry. -/
def inRange (idx : IVec S1000000 32) : IVec S1000000 1 :=
  Host.reduce IntOp.andi
    (andi (cmpi .sge (wrapped idx) (broadcastInDim S1000000x1 ![] bcast_S_S1000000x1 (constantI S_ 32 0#32)))
      (cmpi .sle (wrapped idx) (broadcastInDim S1000000x1 ![0, 1] bcast_S1x1_S1000000x1_0_1
        (broadcastInDim S1x1 ![1] bcast_S1_S1x1_1 (constantI S1 32 499999#32)))))
    (constantI S_ 1 1#1) reducesTo_S1000000x1_S1000000_d1 h_S_

/-- The fill-mode take of rows of `x` at `idx`. -/
def take (x : FVec F S500000x64 .f32) (idx : IVec S1000000 32) : FVec F S1000000x64 .f32 :=
  select (broadcastInDim S1000000x64 ![0] bcast_S1000000_S1000000x64_0 (inRange idx))
    (Host.gather gather_S500000x64_S1000000x1_S1000000x64_1_0_n_n_0_1_164 x (wrapped idx))
    (broadcastInDim S1000000x64 ![] bcast_S_S1000000x64 (constant S_ .f32 0x7FC00000#32))

/-- The wrapped column at a pair is the wrapped word of that pair's index. -/
theorem wrapped_apply (idx : IVec S1000000 32) (i : S1000000x1.Idx) : wrapped idx i = wrap (idx (ix1 (i 0))) := by
  unfold wrapped
  refine (broadcastInDim_apply _ bcast_S1000000_S1000000x1_0 _ i (ix1 (i 0)) (fun a => by
    match a with
    | ⟨0, _⟩ => show (i 0).val = if (1000000 : Nat) = 1 then 0 else (i 0).val; rw [if_neg (by decide)])).trans ?_
  rfl

/-- With every index in `[-500000, 500000)` the range test passes at every pair. -/
theorem inRange_one (idx : IVec S1000000 32)
    (hr : ∀ p : S1000000.Idx, IntOp.cmpi .sge (idx p) 4294467296#32 = 1#1 ∧ IntOp.cmpi .slt (idx p) 500000#32 = 1#1)
    (q : S1000000.Idx) : inRange idx q = 1#1 := by
  unfold inRange
  refine reduce_andi_one _ _ _ _ q rfl fun i _ => ?_
  show IntOp.andi (IntOp.cmpi .sge (wrapped idx i) 0#32) (IntOp.cmpi .sle (wrapped idx i) 499999#32) = 1#1
  rw [wrapped_apply]
  exact wrap_in_range _ (hr _).1 (hr _).2

/-- So the take is the plain gather at the wrapped index. -/
theorem take_eq_gather (x : FVec F S500000x64 .f32) (idx : IVec S1000000 32)
    (hr : ∀ p : S1000000.Idx, IntOp.cmpi .sge (idx p) 4294467296#32 = 1#1 ∧ IntOp.cmpi .slt (idx p) 500000#32 = 1#1) :
    take x idx = Host.gather gather_S500000x64_S1000000x1_S1000000x64_1_0_n_n_0_1_164 x (wrapped idx) := by
  funext j
  unfold take
  refine (select_apply _ _ _ j).trans ?_
  have hm : broadcastInDim S1000000x64 ![0] bcast_S1000000_S1000000x64_0 (inRange idx) j = 1#1 :=
    (broadcastInDim_apply _ bcast_S1000000_S1000000x64_0 _ j (ix1 (j 0)) (fun a => by
      match a with
      | ⟨0, _⟩ => show (j 0).val = if (1000000 : Nat) = 1 then 0 else (j 0).val; rw [if_neg (by decide)])).trans
      (inRange_one idx hr _)
  rw [hm, select_one]

end Cert.KernelIdeal.Hand

end
-- ==== Proof.KernelEntry.lean ====
/-
  What the host lines before the kernel region leave in the arrays the region stages: the padded feature array is
  the concatenation of the two fill-mode takes with 7616 rows of padding appended, and the weight is the first-layer
  weight transposed. The host lines run in five stretches (the two takes, the concatenation, the padding, the
  transposition); each stretch is read on its own, from any contents, and the stretches are then chained.
  A value moved to a buffer's own type and back is the value (the two transports along one equation cancel), and a
  transport along an equation between a literal buffer's type and the type it computes to is the identity.
-/
import proofs.«400610_j36120674959616_2_alg».proof.Proof.Gen.KernelIdeal.Frame
import proofs.«400610_j36120674959616_2_alg».proof.Proof.TakeInRange
import Idealize.ShloMosaic.Lib.StableHlo.Run

noncomputable section

namespace Cert.KernelIdeal.Hand

open Cert.KernelIdeal Cert.KernelIdeal.Gen Idealize.ShloMosaic Idealize.ShloMosaic.TcCoe Idealize.SL.Sem Idealize.ShloMosaic.StableHlo

variable {F : FTy → Type} [FloatOps F]

/-- Contents after two stretches of operations run one after the other. -/
theorem after_append (l₁ l₂ : List (HloOp τ sig (Elt F))) (W : Valuation τ sig (Elt F)) :
    after (l₁ ++ l₂) W = after l₂ (after l₁ W) := by
  induction l₁ generalizing W with
  | nil => rfl
  | cons op l ih => simp only [List.cons_append, after_cons, ih]

/-! ## Transports between a value's type and its buffer's -/

/-- Moved to the buffer's type and back, a value is itself. -/
theorem ofBuf_toBuf {T : BufTy} (x : TRef sig T) (v : T.Contents (Elt F)) : x.ofBuf (x.toBuf v) = v := by
  obtain ⟨r, h, h1, h2⟩ := x
  subst h
  rfl

theorem ofBuf_arg0 (v : (⟨S500000x64, .f32⟩ : BufTy).Contents (Elt F)) :
    (TRef.of main_arg0 : TRef sig ⟨S500000x64, .f32⟩).ofBuf v = v := rfl
theorem ofBuf_arg1 (v : (⟨S500000x64, .f32⟩ : BufTy).Contents (Elt F)) :
    (TRef.of main_arg1 : TRef sig ⟨S500000x64, .f32⟩).ofBuf v = v := rfl
theorem ofBuf_arg2 (v : (⟨S1000000, .i32⟩ : BufTy).Contents (Elt F)) :
    (TRef.of main_arg2 : TRef sig ⟨S1000000, .i32⟩).ofBuf v = v := rfl
theorem ofBuf_arg3 (v : (⟨S1000000, .i32⟩ : BufTy).Contents (Elt F)) :
    (TRef.of main_arg3 : TRef sig ⟨S1000000, .i32⟩).ofBuf v = v := rfl
theorem toBuf_v0 (v : (⟨S1000000x64, .f32⟩ : BufTy).Contents (Elt F)) :
    (TRef.of main_v0 : TRef sig ⟨S1000000x64, .f32⟩).toBuf v = v := rfl
theorem toBuf_v1 (v : (⟨S1000000x64, .f32⟩ : BufTy).Contents (Elt F)) :
    (TRef.of main_v1 : TRef sig ⟨S1000000x64, .f32⟩).toBuf v = v := rfl

/-! ## Each stretch from any contents -/

set_option maxHeartbeats 2000000 in
/-- The first take's stretch leaves the take of the first table at the first index vector. -/
theorem stretch_take0 (W : Valuation τ sig (Elt F)) :
    after (hostOps0 (F := F)) W (Proc.devRef .tc main_v0)
      = take (F := F) (W (Proc.devRef .tc main_arg0)) (W (Proc.devRef .tc main_arg2)) := by
  simp only [hostOps0]
  after_results_simp
  simp only [ofBuf_toBuf, ofBuf_arg0, ofBuf_arg2, toBuf_v0, take, inRange, wrapped]

set_option maxHeartbeats 2000000 in
/-- The second take's stretch leaves the take of the second table at the second index vector. -/
theorem stretch_take1 (W : Valuation τ sig (Elt F)) :
    after (hostOps0_1 (F := F)) W (Proc.devRef .tc main_v1)
      = take (F := F) (W (Proc.devRef .tc main_arg1)) (W (Proc.devRef .tc main_arg3)) := by
  simp only [hostOps0_1]
  after_results_simp
  simp only [ofBuf_toBuf, ofBuf_arg1, ofBuf_arg3, toBuf_v1, take, inRange, wrapped]

set_option maxHeartbeats 2000000 in
/-- The first take's stretch leaves the second table and the second index vector as they were. -/
theorem stretch_take0_arg1 (W : Valuation τ sig (Elt F)) :
    after (hostOps0 (F := F)) W (Proc.devRef .tc main_arg1) = W (Proc.devRef .tc main_arg1) := by
  simp only [hostOps0]
  after_results_simp
set_option maxHeartbeats 2000000 in
theorem stretch_take0_arg3 (W : Valuation τ sig (Elt F)) :
    after (hostOps0 (F := F)) W (Proc.devRef .tc main_arg3) = W (Proc.devRef .tc main_arg3) := by
  simp only [hostOps0]
  after_results_simp

set_option maxHeartbeats 2000000 in
/-- The second take's stretch leaves the first take's result as it was. -/
theorem stretch_take1_v0 (W : Valuation τ sig (Elt F)) :
    after (hostOps0_1 (F := F)) W (Proc.devRef .tc main_v0) = W (Proc.devRef .tc main_v0) := by
  simp only [hostOps0_1]
  after_results_simp

/-- The concatenation's stretch joins the two takes along the feature axis, -/
theorem stretch_concat (W : Valuation τ sig (Elt F)) :
    after (hostOps0_2 (F := F)) W (Proc.devRef .tc main_v2)
      = concatenate S1000000x128 1 [⟨S1000000x64, W (Proc.devRef .tc main_v0)⟩, ⟨S1000000x64, W (Proc.devRef .tc main_v1)⟩]
          concatenates_S1000000x64_S1000000x64_S1000000x128_d1 := by
  simp only [hostOps0_2]
  after_results_simp
/-- and writes the integer zero the padding converts. -/
theorem stretch_concat_c (W : Valuation τ sig (Elt F)) :
    after (hostOps0_2 (F := F)) W (Proc.devRef .tc main_c) = constantI S_ 32 0#32 := by
  simp only [hostOps0_2]
  after_results_simp

theorem ofBuf_v2 (v : (⟨S1000000x128, .f32⟩ : BufTy).Contents (Elt F)) :
    (TRef.of main_v2 : TRef sig ⟨S1000000x128, .f32⟩).ofBuf v = v := rfl
theorem ofBuf_c (v : (⟨S_, .i32⟩ : BufTy).Contents (Elt F)) :
    (TRef.of main_c : TRef sig ⟨S_, .i32⟩).ofBuf v = v := rfl
theorem toBuf_v3 (v : (⟨S1007616x128, .f32⟩ : BufTy).Contents (Elt F)) :
    (TRef.of main_v3 : TRef sig ⟨S1007616x128, .f32⟩).toBuf v = v := rfl

/-- The padding's stretch appends 7616 rows of the converted zero to the concatenation. -/
theorem stretch_pad (W : Valuation τ sig (Elt F)) :
    after (hostOps0_3 (F := F)) W (Proc.devRef .tc main_v3)
      = pad S1007616x128 ![0, 0] ![7616, 0] ![0, 0] (W (Proc.devRef .tc main_v2)) (sitofp .f32 (W (Proc.devRef .tc main_c)))
          pads_S1000000x128_S1007616x128_076160_000 h_S_ := by
  simp only [hostOps0_3]
  after_results_simp
  simp only [ofBuf_toBuf, ofBuf_v2, ofBuf_c, toBuf_v3]

/-- The transposition's stretch leaves the padded array as it was, -/
theorem stretch_transpose_v3 (W : Valuation τ sig (Elt F)) :
    after (hostOps0_4 (F := F)) W (Proc.devRef .tc main_v3) = W (Proc.devRef .tc main_v3) := by
  simp only [hostOps0_4]
  after_results_simp
/-- and writes the first-layer weight transposed. -/
theorem stretch_transpose (W : Valuation τ sig (Elt F)) :
    after (hostOps0_4 (F := F)) W (Proc.devRef .tc main_v4)
      = transpose S128x128 [1, 0] (W (Proc.devRef .tc main_arg4)) transposes_S128x128_S128x128_1_0 := by
  simp only [hostOps0_4]
  after_results_simp

set_option maxHeartbeats 2000000 in
/-- None of the first four stretches writes the first-layer weight. -/
theorem stretch_arg4 (W : Valuation τ sig (Elt F)) :
    after (hostOps0_3 (F := F)) (after (hostOps0_2 (F := F)) (after (hostOps0_1 (F := F)) (after (hostOps0 (F := F)) W))) (Proc.devRef .tc main_arg4)
      = W (Proc.devRef .tc main_arg4) := by
  have h3 : ∀ X : Valuation τ sig (Elt F), after (hostOps0_3 (F := F)) X (Proc.devRef .tc main_arg4) = X (Proc.devRef .tc main_arg4) := fun X => by
    simp only [hostOps0_3]; after_results_simp
  have h2 : ∀ X : Valuation τ sig (Elt F), after (hostOps0_2 (F := F)) X (Proc.devRef .tc main_arg4) = X (Proc.devRef .tc main_arg4) := fun X => by
    simp only [hostOps0_2]; after_results_simp
  have h1 : ∀ X : Valuation τ sig (Elt F), after (hostOps0_1 (F := F)) X (Proc.devRef .tc main_arg4) = X (Proc.devRef .tc main_arg4) := fun X => by
    simp only [hostOps0_1]; after_results_simp
  have h0 : ∀ X : Valuation τ sig (Elt F), after (hostOps0 (F := F)) X (Proc.devRef .tc main_arg4) = X (Proc.devRef .tc main_arg4) := fun X => by
    simp only [hostOps0]; after_results_simp
  rw [h3, h2, h1, h0]

/-! ## The arrays the region finds -/

variable (m : (ℓ : Loc nD τ sig) → Buf (Elt F) ℓ)

/-- The two fill-mode takes joined along the feature axis. -/
def feats (x0 x1 : FVec F S500000x64 .f32) (i2 i3 : IVec S1000000 32) : FVec F S1000000x128 .f32 :=
  concatenate S1000000x128 1 [⟨S1000000x64, take x0 i2⟩, ⟨S1000000x64, take x1 i3⟩]
    concatenates_S1000000x64_S1000000x64_S1000000x128_d1

/-- The padded feature array as the region finds it. -/
theorem entry_feats (c : Dev nD) :
    V m c main_v3 = pad S1007616x128 ![0, 0] ![7616, 0] ![0, 0]
      (feats (m ((c : Thread nD τ).loc main_arg0)) (m ((c : Thread nD τ).loc main_arg1))
        (m ((c : Thread nD τ).loc main_arg2)) (m ((c : Thread nD τ).loc main_arg3)))
      (sitofp .f32 (constantI S_ 32 0#32)) pads_S1000000x128_S1007616x128_076160_000 h_S_ := by
  show after (List.flatten [hostOps0, hostOps0_1, hostOps0_2, hostOps0_3, hostOps0_4]) (fun b => m (c, b)) (Proc.devRef .tc main_v3) = _
  simp only [List.flatten_cons, List.flatten_nil, List.append_nil, after_append]
  rw [stretch_transpose_v3, stretch_pad, stretch_concat, stretch_concat_c, stretch_take1_v0, stretch_take1, stretch_take0,
    stretch_take0_arg1, stretch_take0_arg3]
  rfl

/-- The transposed first-layer weight as the region finds it. -/
theorem entry_weight (c : Dev nD) :
    V m c main_v4 = transpose S128x128 [1, 0] (m ((c : Thread nD τ).loc main_arg4)) transposes_S128x128_S128x128_1_0 := by
  show after (List.flatten [hostOps0, hostOps0_1, hostOps0_2, hostOps0_3, hostOps0_4]) (fun b => m (c, b)) (Proc.devRef .tc main_v4) = _
  simp only [List.flatten_cons, List.flatten_nil, List.append_nil, after_append]
  rw [stretch_transpose, stretch_arg4]

end Cert.KernelIdeal.Hand

end
-- ==== Proof.KernelRun.lean ====
/-
  The kernel program's run with its result named. After the region the host slices the first 1000000 entries of the
  output array and reshapes them to a column, so the result at pair `p` is the score of padded row `p`; rows below
  1000000 of the padded feature array are the rows of the two joined takes, and the region finds the weight
  transposed and the other operands as launched.
-/
import proofs.«400610_j36120674959616_2_alg».proof.Proof.KernelArray
import proofs.«400610_j36120674959616_2_alg».proof.Proof.KernelEntry
import Idealize.ShloMosaic.Lib.KernelVsHost
import Idealize.ShloMosaic.Lib.StableHlo.Run

noncomputable section

namespace Cert.KernelIdeal.Hand

open Cert.KernelIdeal Cert.KernelIdeal.Gen Cert.Hand Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-- What the host lines after the region leave in the result buffer: the output array's first 1000000 entries as a column. -/
theorem tail_eq (c : Dev nD) :
    Pipeline.afterTail₀ cfgs (dats m) 0 (V0 m) [hostOps1] c main_v7
      = shapeCast S1000000x1 (extractStridedSlice S1000000 ![0] (rowScores m c) slices_S1007616_S1000000_0)
          shapeCasts_S1000000_S1000000x1 := by
  unfold Pipeline.afterTail₀
  show StableHlo.after hostOps1 _ (Proc.devRef .tc main_v7) = _
  after_results
  rw [Pipeline.withArrays_arr spec0 launch0.win.arr_inj c _ _ 5,
    show (dats m 0 c).arrAt 5 (cfgs 0).N = rowScores m c from final m c]
  rfl

/-- THE RESULT AT A PAIR: the score of the pair's row of the two joined takes. -/
theorem result_apply (c : Dev nD) (p : Fin 1000000) :
    Pipeline.afterTail₀ cfgs (dats m) 0 (V0 m) [hostOps1] c main_v7 (ix2 p (0 : Fin 1))
      = score (transpose S128x128 [1, 0] (m ((c : Thread nD τ).loc main_arg4)) transposes_S128x128_S128x128_1_0)
          (m ((c : Thread nD τ).loc main_arg5)) (m ((c : Thread nD τ).loc main_arg6)) (m ((c : Thread nD τ).loc main_arg7))
          (fun j => feats (F := Ideal) (m ((c : Thread nD τ).loc main_arg0)) (m ((c : Thread nD τ).loc main_arg1))
            (m ((c : Thread nD τ).loc main_arg2)) (m ((c : Thread nD τ).loc main_arg3)) (ix2 p j)) := by
  rw [tail_eq]
  have hp : p.val < 1007616 := by have := p.isLt; omega
  refine (shapeCast_apply _ _ (ix2 p (0 : Fin 1)) (ix1 p) ?_).trans ?_
  · rw [Shape.rowMajor_val_one, Shape.rowMajor_val_two]
    show p.val = p.val * 1 + 0
    omega
  refine (extractStridedSlice_apply ![0] _ _ (ix1 p) (ix1 (⟨p.val, hp⟩ : Fin 1007616)) fun a => ?_).trans ?_
  · match a with
    | ⟨0, _⟩ => show p.val = 0 + p.val; omega
  show score (V m c main_v4) (V m c main_arg5) (V m c main_arg6) (V m c main_arg7)
      (fun j => V m c main_v3 (ix2 (⟨p.val, hp⟩ : Fin 1007616) j)) = _
  rw [entry_weight, V_main_arg5, V_main_arg6, V_main_arg7]
  refine congrArg (score _ _ _ _) (funext fun j => ?_)
  rw [entry_feats]
  exact pad_apply_of_inside ![0, 0] ![7616, 0] ![0, 0] _ _ pads_S1000000x128_S1007616x128_076160_000 h_S_
    (ix2 (⟨p.val, hp⟩ : Fin 1007616) j) (ix2 p j) fun a => by
      match a with
      | ⟨0, _⟩ => show p.val = 0 + p.val * (0 + 1); omega
      | ⟨1, _⟩ => show j.val = 0 + j.val * (0 + 1); omega

/-- THE RUN: every weakly fair execution terminates with the result buffer at what the host tail computes from the
    output array, and the arguments as launched. -/
theorem run : θ_run defs (onTc (τ := τ) (main (F := Ideal))) ⟨m, fun _ => 0, ρ⟩ (fun r => ∀ c : Dev nD,
      r.2.mem ((c.tc : Thread nD τ).loc main_v7) = Pipeline.afterTail₀ cfgs (dats m) 0 (V0 m) [hostOps1] c main_v7
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(h c).2 main_v7 (Pipeline.mem_restRefs_of main_v7 (by decide) (by decide)),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      ((h c).1 2).trans (((dats m 0 c).arrAt_in 2 rfl _).trans ((A_eq m c 2).trans (V_main_arg5 m c))),
      ((h c).1 3).trans (((dats m 0 c).arrAt_in 3 rfl _).trans ((A_eq m c 3).trans (V_main_arg6 m c))),
      ((h c).1 4).trans (((dats m 0 c).arrAt_in 4 rfl _).trans ((A_eq m c 4).trans (V_main_arg7 m c)))⟩)
    (run_main m ρ)

end Cert.KernelIdeal.Hand

end
-- ==== Proof.RefSide.lean ====
/-
  The reference's result at pair `p` is the score of row `p` of its concatenated features: its two `dot_general`s
  are the sums over the contraction index, its `relu` the maximum with zero, its transposed second-layer weight
  read back at `(0, k)`.
-/
import proofs.«400610_j36120674959616_2_alg».proof.Proof.Gen.ReferenceIdeal.Read
import proofs.«400610_j36120674959616_2_alg».proof.Proof.Score

noncomputable section

namespace Cert.ReferenceIdeal.Hand

open Cert.ReferenceIdeal Cert.ReferenceIdeal.Gen Cert.ReferenceIdeal.Read Cert.Hand Idealize.ShloMosaic Idealize.ShloMosaic.ValueIdx

/-! ## The printed index maps at a pair, a hidden unit and a feature -/

theorem feat_idx (p : Fin 1000000) (k j : Fin 128) :
    lidx_main_v16 (lidx_main_v22 (ix2 p (0 : Fin 1)) k) j = ix2 p j :=
  funext fun a => by match a with | ⟨0, _⟩ => rfl | ⟨1, _⟩ => rfl

theorem weight1_idx (p : Fin 1000000) (k j : Fin 128) :
    ridx_main_v16 (lidx_main_v22 (ix2 p (0 : Fin 1)) k) j = ix2 j k :=
  funext fun a => by match a with | ⟨0, _⟩ => rfl | ⟨1, _⟩ => rfl

theorem bias1_idx (p : Fin 1000000) (k : Fin 128) :
    idx_main_v17 (idx_main_v18 (lidx_main_v22 (ix2 p (0 : Fin 1)) k)) = ix1 k :=
  funext fun a => by match a with | ⟨0, _⟩ => rfl

theorem weight2_idx (p : Fin 1000000) (k : Fin 128) :
    idx_main_v21 (ridx_main_v22 (ix2 p (0 : Fin 1)) k) = ix2 (0 : Fin 1) k :=
  funext fun a => by match a with | ⟨0, _⟩ => rfl | ⟨1, _⟩ => rfl

theorem bias2_idx (p : Fin 1000000) :
    idx_main_v23 (idx_main_v24 (ix2 p (0 : Fin 1))) = ix1 (0 : Fin 1) :=
  funext fun a => by match a with | ⟨0, _⟩ => rfl

/-! ## The result at a pair -/

/-- The reference's result at pair `p`: the score of row `p` of the concatenated gathered features, under the
    transposed first-layer weight. -/
theorem result_apply (x0 x1 : (⟨S500000x64, .f32⟩ : BufTy).Contents (Elt Ideal)) (x2 x3 : (⟨S1000000, .i32⟩ : BufTy).Contents (Elt Ideal))
    (x4 : (⟨S128x128, .f32⟩ : BufTy).Contents (Elt Ideal)) (x5 : (⟨S128, .f32⟩ : BufTy).Contents (Elt Ideal))
    (x6 : (⟨S1x128, .f32⟩ : BufTy).Contents (Elt Ideal)) (x7 : (⟨S1, .f32⟩ : BufTy).Contents (Elt Ideal)) (p : Fin 1000000) :
    val_main_v25 (F := Ideal) x0 x1 x2 x3 x4 x5 x6 x7 (ix2 p (0 : Fin 1))
      = score (val_main_v15 (F := Ideal) x4) x5 x6 x7 (fun j => val_main_v14 (F := Ideal) x0 x1 x2 x3 (ix2 p j)) := by
  rw [val_main_v25_apply, val_main_v22_apply, val_main_v24_apply, val_main_v23_apply, bias2_idx]
  unfold score
  refine congrArg (· + x7 (ix1 (0 : Fin 1))) (Finset.sum_congr rfl fun k _ => ?_)
  rw [val_main_v20_apply, val_main_v19_apply, val_main_v16_apply, val_main_v18_apply, val_main_v17_apply,
    val_main_call0_v0_apply, val_main_call0_cst_apply, val_main_v21_apply, bias1_idx, weight2_idx]
  simp only [Ideal.maximumf_def, Ideal.addf_def, Ideal.ofBits_def, Ideal.ofBits_zero_f32, feat_idx, weight1_idx]

end Cert.ReferenceIdeal.Hand

end
-- ==== Proof.PreRange.lean ====
/-
  What the precondition says of the two index inputs: every entry of `idx_left` and of `idx_right`, read as a signed
  word, lies in `[-500000, 500000)`, the range NumPy-style indexing into an axis of extent 500000 accepts. The
  precondition is a conjunction of `jnp.all`s; its last two conjuncts are these, each an `and`-reduction of the
  elementwise test `(-500000 ≤ i) ∧ (i < 500000)`.
-/
import proofs.«400610_j36120674959616_2_alg».proof.Pre_finite_inputs
import proofs.«400610_j36120674959616_2_alg».proof.Proof.Gen.Pre_finite_inputs
import Idealize.ShloMosaic.Lib.ReduceAll
import Idealize.ShloMosaic.Lib.ValueIdx

noncomputable section

namespace Cert.Pre_finite_inputs.Hand

open Cert.Pre_finite_inputs Cert.Pre_finite_inputs.Gen Idealize.ShloMosaic Idealize.ShloMosaic.ValueIdx

instance : Subsingleton S_.Idx := ⟨fun a b => funext fun d => d.elim0⟩

variable {F : FTy → Type} [FloatOps F]

/-- Under the precondition both index vectors are, entry by entry, in `[-500000, 500000)` as signed words. -/
theorem index_ranges (a0 a1 : FVec F S500000x64 .f32) (a2 a3 : IVec S1000000 32) (a4 : FVec F S128x128 .f32)
    (a5 : FVec F S128 .f32) (a6 : FVec F S1x128 .f32) (a7 : FVec F S1 .f32)
    (h : fn (F := F) a0 a1 a2 a3 a4 a5 a6 a7 = fun _ => 1#1) :
    (∀ p : S1000000.Idx, IntOp.cmpi .sge (a2 p) 4294467296#32 = 1#1 ∧ IntOp.cmpi .slt (a2 p) 500000#32 = 1#1)
    ∧ (∀ p : S1000000.Idx, IntOp.cmpi .sge (a3 p) 4294467296#32 = 1#1 ∧ IntOp.cmpi .slt (a3 p) 500000#32 = 1#1) := by
  have h0 := congrFun h ix0
  dsimp only [fn, fn_part1, fn_part2, andi] at h0
  obtain ⟨h35, h41⟩ := IntOp.andi_eq_one.1 h0
  obtain ⟨-, h34⟩ := IntOp.andi_eq_one.1 h35
  refine ⟨fun p => ?_, fun p => ?_⟩
  · have e := Host.reduce_andi_all _ _ _ _ ix0 h34 p
    exact IntOp.andi_eq_one.1 e
  · have e := Host.reduce_andi_all _ _ _ _ ix0 h41 p
    exact IntOp.andi_eq_one.1 e

end Cert.Pre_finite_inputs.Hand

end
-- ==== Proof.Agree.lean ====
/-
  The two programs' operands of the score are the same functions of the arguments. Both wrap the index the same
  way; the reference then gathers, the kernel gathers and keeps the row where the wrapped index is in range. With
  every index in `[-500000, 500000)` the kernel's takes are the reference's gathers, so the joined features agree;
  the transposed first-layer weight is one term in both.
-/
import proofs.«400610_j36120674959616_2_alg».proof.Proof.Gen.ReferenceIdeal.Read
import proofs.«400610_j36120674959616_2_alg».proof.Proof.KernelEntry

noncomputable section

namespace Cert.Hand

open Idealize.ShloMosaic Idealize.ShloMosaic.ValueIdx

variable {F : FTy → Type} [FloatOps F]

/-- The reference's column of start indices is the kernel's wrapped index column. -/
theorem ref_wrapped_left (x2 : IVec Cert.KernelIdeal.S1000000 32) :
    Cert.ReferenceIdeal.Read.val_main_v5 (F := F) x2 = Cert.KernelIdeal.Hand.wrapped x2 := rfl
theorem ref_wrapped_right (x3 : IVec Cert.KernelIdeal.S1000000 32) :
    Cert.ReferenceIdeal.Read.val_main_v12 (F := F) x3 = Cert.KernelIdeal.Hand.wrapped x3 := rfl

/-- The reference's transposed first-layer weight is the kernel's. -/
theorem ref_weight (x4 : FVec F Cert.KernelIdeal.S128x128 .f32) :
    Cert.ReferenceIdeal.Read.val_main_v15 (F := F) x4
      = transpose Cert.KernelIdeal.S128x128 [1, 0] x4 Cert.KernelIdeal.Gen.transposes_S128x128_S128x128_1_0 := rfl

/-- With every index in range the kernel's joined takes are the reference's joined gathers. -/
theorem feats_agree (x0 x1 : FVec F Cert.KernelIdeal.S500000x64 .f32) (x2 x3 : IVec Cert.KernelIdeal.S1000000 32)
    (h2 : ∀ p : Cert.KernelIdeal.S1000000.Idx, IntOp.cmpi .sge (x2 p) 4294467296#32 = 1#1 ∧ IntOp.cmpi .slt (x2 p) 500000#32 = 1#1)
    (h3 : ∀ p : Cert.KernelIdeal.S1000000.Idx, IntOp.cmpi .sge (x3 p) 4294467296#32 = 1#1 ∧ IntOp.cmpi .slt (x3 p) 500000#32 = 1#1) :
    Cert.ReferenceIdeal.Read.val_main_v14 (F := F) x0 x1 x2 x3 = Cert.KernelIdeal.Hand.feats x0 x1 x2 x3 := by
  unfold Cert.KernelIdeal.Hand.feats Cert.ReferenceIdeal.Read.val_main_v14 Cert.ReferenceIdeal.Read.val_main_v6 Cert.ReferenceIdeal.Read.val_main_v13
  rw [Cert.KernelIdeal.Hand.take_eq_gather x0 x2 h2, Cert.KernelIdeal.Hand.take_eq_gather x1 x3 h3, ref_wrapped_left, ref_wrapped_right]
  rfl

end Cert.Hand

end
-- ==== Proof.lean ====
/- The claim: the three frames, the (empty) idealization ledger, and the equality of results over the extended reals.

   Both programs score 1000000 candidate pairs. A pair's features are row `idx_left[p]` of the first node table joined
   with row `idx_right[p]` of the second (128 numbers); its score is `∑ k, max (∑ j, x j · W1[k, j] + b1[k]) 0 · W2[0, k] + b2[0]`.
   The reference gathers the rows, multiplies by `W1ᵀ`, adds the bias, takes the maximum with zero, multiplies by `W2ᵀ`
   and adds the second bias. The kernel gathers with a fill-mode take, pads the rows to 123 blocks of 8192, and scores
   each block in one grid point: a matrix product into zeros, the bias, the maximum with zero, a product with the
   second-layer row broadcast over the rows, a sum over the 128 lanes, the second bias; the host then drops the padding.
   Sums and products on the extended reals commute and associate, so the two scores are one expression term by term;
   no cancellation or distribution is used and the finiteness of the float inputs is not needed. What is needed is that
   each index lies in `[-500000, 500000)`, the range of NumPy-style indexing into an axis of extent 500000: there the
   kernel's range test passes at every pair and its take is the reference's gather (outside it the take fills the row
   while the reference's gather clamps the index). -/
import proofs.«400610_j36120674959616_2_alg».proof.Defs
import proofs.«400610_j36120674959616_2_alg».proof.Proof.Gen.Kernel
import proofs.«400610_j36120674959616_2_alg».proof.Proof.Gen.Kernel.Skeleton
import proofs.«400610_j36120674959616_2_alg».proof.Proof.Gen.Kernel.Launch
import proofs.«400610_j36120674959616_2_alg».proof.Proof.Gen.Kernel.Points
import proofs.«400610_j36120674959616_2_alg».proof.Proof.Gen.Kernel.Frame
import proofs.«400610_j36120674959616_2_alg».proof.Proof.Gen.KernelIdeal
import proofs.«400610_j36120674959616_2_alg».proof.Proof.Gen.KernelIdeal.Skeleton
import proofs.«400610_j36120674959616_2_alg».proof.Proof.Gen.KernelIdeal.Launch
import proofs.«400610_j36120674959616_2_alg».proof.Proof.Gen.KernelIdeal.Points
import proofs.«400610_j36120674959616_2_alg».proof.Proof.Gen.KernelIdeal.Frame
import proofs.«400610_j36120674959616_2_alg».proof.Proof.Gen.ReferenceIdeal
import proofs.«400610_j36120674959616_2_alg».proof.Proof.Gen.ReferenceIdeal.Run
import proofs.«400610_j36120674959616_2_alg».proof.Proof.Gen.ReferenceIdeal.Read
import proofs.«400610_j36120674959616_2_alg».proof.Proof.Gen.Pre_finite_inputs
import proofs.«400610_j36120674959616_2_alg».proof.Proof.KernelRun
import proofs.«400610_j36120674959616_2_alg».proof.Proof.RefSide
import proofs.«400610_j36120674959616_2_alg».proof.Proof.PreRange
import proofs.«400610_j36120674959616_2_alg».proof.Proof.Agree
import Idealize.ShloMosaic.Adequacy
import Idealize.ShloMosaic.Init

noncomputable section

namespace Cert.Proof

open Idealize.ShloMosaic Idealize.ShloMosaic.ValueIdx Idealize.SL.Sem

/-- The word-level kernel program runs and keeps its arguments. -/
theorem frame_kernel : Cert.frame_Kernel := fun m ρ _ => Cert.Kernel.Gen.frame m ρ

/-- So does the kernel program over the extended reals. -/
theorem frame_kernel_ideal : Cert.frame_KernelIdeal := fun m ρ _ => Cert.KernelIdeal.Gen.frame m ρ

/-- The reference is host operations only: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both programs end with, at each pair, the score of the pair's joined feature rows. -/
theorem algebraic : Cert.algebraic_KernelIdeal_ReferenceIdeal := by
  intro m ρ m' ρ' hpre hagree
  refine ⟨fun c => Pipeline.afterTail₀ Cert.KernelIdeal.cfgs (Cert.KernelIdeal.Gen.dats m) 0 (Cert.KernelIdeal.Gen.V0 m)
    [Cert.KernelIdeal.Gen.hostOps1] c Cert.KernelIdeal.main_v7, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7⟩ := hagree c
  obtain ⟨h2, h3⟩ := Cert.Pre_finite_inputs.Hand.index_ranges _ _ _ _ _ _ _ _ (hpre c)
  rw [Cert.ReferenceIdeal.Read.val_main_v25_eq, e0, e1, e2, e3, e4, e5, e6, e7]
  funext i
  obtain ⟨p, q, rfl⟩ : ∃ (p : Fin 1000000) (q : Fin 1), i = ix2 p q := ⟨i 0, i 1, eq_ix2 i⟩
  obtain rfl : q = 0 := Subsingleton.elim _ _
  refine Eq.trans ?_ (Cert.KernelIdeal.Hand.result_apply m c p).symm
  rw [Cert.ReferenceIdeal.Hand.result_apply, Cert.Hand.ref_weight, Cert.Hand.feats_agree _ _ _ _ h2 h3]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
